-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S3x4096 : Shape := ⟨2, ![3, 4096]⟩
abbrev S_ : Shape := ⟨0, ![]⟩
abbrev S16384 : Shape := ⟨1, ![16384]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S3x4096 : S_.BroadcastsInDim S3x4096 (![] : Fin 0 → Fin S3x4096.rank)
  reducesTo_S3x4096_S_d0_1 : S3x4096.ReducesTo [0, 1] S_
  reducesTo_S16384x4096_S16384_d1 : S16384x4096.ReducesTo [1] S16384
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x4096 .f32) (main_arg1 : FVec F S3x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S3x4096 .f32 := Host.absf main_arg1
  let main_cst_0 : FVec F S_ .f32 := constant S_ .f32 0x7F800000#32
  let main_v5 : FVec F S3x4096 .f32 := broadcastInDim S3x4096 ![] bcast_S_S3x4096 main_cst_0
  let main_v6 : IVec S3x4096 1 := cmpf .olt main_v4 main_v5
  let main_c_1 : IVec S_ 1 := constantI S_ 1 1#1
  let main_v7 : IVec S_ 1 := (fun x v => Host.reduce IntOp.andi x v reducesTo_S3x4096_S_d0_1 h_S_) main_v6 main_c_1
  let main_v8 : IVec S_ 1 := andi main_v3 main_v7
  let main_v9 : FVec F S16384x4096 .f32 := mulf main_arg0 main_arg0
  let main_cst_2 : FVec F S_ .f32 := constant S_ .f32 0x00000000#32
  let main_v10 : FVec F S16384 .f32 := (fun x v => Host.reduceAdd x v reducesTo_S16384x4096_S16384_d1 h_S_) main_v9 main_cst_2
  let main_cst_3 : FVec F S_ .f32 := constant S_ .f32 0x00000000#32
  let main_v11 : FVec F S16384 .f32 := broadcastInDim S16384 ![] bcast_S_S16384 main_cst_3
  let main_v12 : IVec S16384 1 := cmpf .ogt main_v10 main_v11
  let main_c_4 : IVec S_ 1 := constantI S_ 1 1#1
  let main_v13 : IVec S_ 1 := (fun x v => Host.reduce IntOp.andi x v reducesTo_S16384_S_d0 h_S_) main_v12 main_c_4
  let main_v14 : IVec S_ 1 := andi main_v8 main_v13
  main_v14
-- ==== Kernel.lean ====
abbrev S16384x4096 : Shape := ⟨2, ![16384, 4096]⟩
abbrev S3x4096 : Shape := ⟨2, ![3, 4096]⟩
abbrev S_ : Shape := ⟨0, ![]⟩
abbrev S3 : Shape := ⟨1, ![3]⟩
abbrev S3x1 : Shape := ⟨2, ![3, 1]⟩
abbrev S4096x3 : Shape := ⟨2, ![4096, 3]⟩
abbrev S16384x3 : Shape := ⟨2, ![16384, 3]⟩
abbrev S512x4096 : Shape := ⟨2, ![512, 4096]⟩
abbrev S512x3 : Shape := ⟨2, ![512, 3]⟩
abbrev S512 : Shape := ⟨1, ![512]⟩
abbrev S512x1 : Shape := ⟨2, ![512, 1]⟩

abbrev nBuf : Space → Nat
  | .hbm => 12
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S3x4096, .f32⟩
  | .hbm, ⟨2, _⟩ => ⟨S3x4096, .f32⟩
  | .hbm, ⟨3, _⟩ => ⟨S_, .f32⟩
  | .hbm, ⟨4, _⟩ => ⟨S3, .f32⟩
  | .hbm, ⟨5, _⟩ => ⟨S3x1, .f32⟩
  | .hbm, ⟨6, _⟩ => ⟨S3x1, .f32⟩
  | .hbm, ⟨7, _⟩ => ⟨S3x4096, .f32⟩
  | .hbm, ⟨8, _⟩ => ⟨S3x4096, .f32⟩
  | .hbm, ⟨9, _⟩ => ⟨S4096x3, .f32⟩
  | .hbm, ⟨10, _⟩ => ⟨S4096x3, .bf16⟩
  | .hbm, ⟨11, _⟩ => ⟨S16384x3, .f32⟩
  | .local _ .vmem, ⟨0, _⟩ => ⟨S512x4096, .f32⟩
  | .local _ .vmem, ⟨1, _⟩ => ⟨S512x4096, .f32⟩
  | .local _ .vmem, ⟨2, _⟩ => ⟨S4096x3, .bf16⟩
  | .local _ .vmem, ⟨3, _⟩ => ⟨S512x3, .f32⟩
  | .local _ .vmem, ⟨4, _⟩ => ⟨S512x3, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x3 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S3x4096_S3_d1 : S3x4096.ReducesTo [1] S3
  h_S_ : 0 < S_.numel
  bcast_S3_S3x1_0 : S3.BroadcastsInDim S3x1 (![0] : Fin 1 → Fin S3x1.rank)
  bcast_S3x1_S3x4096_0_1 : S3x1.BroadcastsInDim S3x4096 (![0, 1] : Fin 2 → Fin S3x4096.rank)
  transposes_S3x4096_S4096x3_1_0 : S3x4096.Transposes [1, 0] S4096x3
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  inb_S4096x3_S4096x3_0_0 : ∀ a, (![0, 0] : Fin 2 → Nat) a + S4096x3.size a ≤ S4096x3.size a
  h_S4096x3 : 0 < S4096x3.numel
  shapeCasts_S4096x3_S4096x3 : S4096x3.ShapeCasts S4096x3
  inb_S512x3_S512x3_0_0 : ∀ a, (![0, 0] : Fin 2 → Nat) a + S512x3.size a ≤ S512x3.size a
  h_S512x3 : 0 < S512x3.numel
  dot_S512x4096_S4096x3_S512x3_1_0_0_1_n_n_wf : DotDims.WF S512x4096 S4096x3 S512x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x3.size a ≤ S4096x3.size a
  hwx0_1 : ∀ i : grid0.Coords, EltTy.bits .bf16 = 32 ∨ (Rect.block (s := S4096x3) S4096x3.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3.size a ≤ S16384x3.size a
  hwx0_2 : ∀ i : grid0.Coords, EltTy.bits .f32 = 32 ∨ (Rect.block (s := S16384x3) S512x3.size (cc0_transform_2 i) (hinb0_2 i)).WholeWords (EltTy.packing .f32)

variable [Facts₀]

def dot_S512x4096_S4096x3_S512x3_1_0_0_1_n_n : DotDims S512x4096 S4096x3 S512x3 where
  lhsContracting := [1]
  rhsContracting := [0]
  lhsNonContracting := [0]
  rhsNonContracting := [1]
  lhsBatch := []
  rhsBatch := []
  wf := dot_S512x4096_S4096x3_S512x3_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S3x4096 : Shape := ⟨2, ![3, 4096]⟩
abbrev S_ : Shape := ⟨0, ![]⟩
abbrev S16384 : Shape := ⟨1, ![16384]⟩
abbrev S16384x1 : Shape := ⟨2, ![16384, 1]⟩
abbrev S3 : Shape := ⟨1, ![3]⟩
abbrev S3x1 : Shape := ⟨2, ![3, 1]⟩
abbrev S4096x3 : Shape := ⟨2, ![4096, 3]⟩
abbrev S16384x3 : Shape := ⟨2, ![16384, 3]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S3x4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S16384x4096, .f32⟩
  | .hbm, ⟨8, _⟩ => ⟨S16384x4096, .f32⟩
  | .hbm, ⟨9, _⟩ => ⟨S3x4096, .f32⟩
  | .hbm, ⟨10, _⟩ => ⟨S_, .f32⟩
  | .hbm, ⟨11, _⟩ => ⟨S3, .f32⟩
  | .hbm, ⟨12, _⟩ => ⟨S3x1, .f32⟩
  | .hbm, ⟨13, _⟩ => ⟨S3x1, .f32⟩
  | .hbm, ⟨14, _⟩ => ⟨S3x4096, .f32⟩
  | .hbm, ⟨15, _⟩ => ⟨S3x4096, .f32⟩
  | .hbm, ⟨16, _⟩ => ⟨S4096x3, .f32⟩
  | .hbm, ⟨17, _⟩ => ⟨S16384x3, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]

class Facts₀ : Prop where
  reducesTo_S16384x4096_S16384_d1 : S16384x4096.ReducesTo [1] S16384
  h_S_ : 0 < S_.numel
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  reducesTo_S3x4096_S3_d1 : S3x4096.ReducesTo [1] S3
  bcast_S3_S3x1_0 : S3.BroadcastsInDim S3x1 (![0] : Fin 1 → Fin S3x1.rank)
  bcast_S3x1_S3x4096_0_1 : S3x1.BroadcastsInDim S3x4096 (![0, 1] : Fin 2 → Fin S3x4096.rank)
  transposes_S3x4096_S4096x3_1_0 : S3x4096.Transposes [1, 0] S4096x3
  dot_S16384x4096_S4096x3_S16384x3_1_0_0_1_n_n_wf : DotDims.WF S16384x4096 S4096x3 S16384x3 [1] [0] [0] [1] [] []

variable [Facts₀]

def dot_S16384x4096_S4096x3_S16384x3_1_0_0_1_n_n : DotDims S16384x4096 S4096x3 S16384x3 where
  lhsContracting := [1]
  rhsContracting := [0]
  lhsNonContracting := [0]
  rhsNonContracting := [1]
  lhsBatch := []
  rhsBatch := []
  wf := dot_S16384x4096_S4096x3_S16384x3_1_0_0_1_n_n_wf

class Facts : Prop extends Facts₀ where

variable [Facts]
-- ==== Proof.LibRowOps.lean ====
/-
  Row-wise operations read at an index, at the ideal instance, for a matrix of any number of rows: a reduction along
  the columns (a sum, a maximum) read at a row is the sum, or the fold of `max`, over that row's entries; a vector of
  row values made a column and that column broadcast along the rows read at (row, column) are the row's value; and a
  matrix product into a zero accumulator read at (row, column) is the sum over the contracted axis of the row's entries
  against the column's. None of them depends on the other rows, which is why a kernel may cut the rows into blocks.
-/
import Idealize.ShloMosaic.PureOps.Ideal.Laws
import Idealize.ShloMosaic.Lib.ValueLayout

noncomputable section

open scoped BigOperators

namespace Cert.RowOps

open Idealize.ShloMosaic Idealize.ShloMosaic.ValueIdx

variable {R N K : ℕ} {φ φ₁ φ₂ : FTy} {α : Type}

/-- Over row `r` of an `R × N` matrix reduced along its columns, the source index with column `k` put back is
    `(r, k)`. -/
theorem lift_row (h : (⟨2, ![R, N]⟩ : Shape).Reduces [(1 : Fin 2)] ⟨1, ![R]⟩) (r : Fin R) (k : Fin N) :
    h.lift (ix1 r) k = ix2 r k := by
  funext c
  apply Fin.ext
  match c with
  | ⟨0, _⟩ => rfl
  | ⟨1, _⟩ => rfl

/-- A sum along the columns, read at row `r`: the sum of that row's entries. -/
theorem rowSum_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.add.neutral φ hφ) (r : Fin R) :
    multiReduction .add [(1 : Fin 2)] ⟨1, ![R]⟩ src acc h hφ hacc (ix1 r) = ∑ k : Fin N, src (ix2 r k) :=
  (Ideal.multiReduction_add_single src acc h hφ hacc (ix1 r)).trans
    (Finset.sum_congr rfl fun k _ => congrArg src (lift_row h r k))

/-- A maximum along the columns, read at row `r`: the fold of `max`, from the accumulator's value, over that row's
    entries. -/
theorem rowMax_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.maximumf.neutral φ hφ) (r : Fin R) :
    multiReduction .maximumf [(1 : Fin 2)] ⟨1, ![R]⟩ src acc h hφ hacc (ix1 r)
      = (Finset.univ : Finset (Fin N)).fold max (Ideal.ofBits φ acc) (fun k => src (ix2 r k)) := by
  have e : src ∘ h.lift (ix1 r) = fun k : Fin N => src (ix2 r k) := funext fun k => congrArg src (lift_row h r k)
  rw [Ideal.multiReduction_maximumf_single, e]
  rfl

/-- A vector of `R` values made an `R × 1` column reads, at `(r, u)`, the value at `r`. -/
theorem shapeCast_a_a1_apply (x : (⟨1, ![R]⟩ : Shape).Idx → α) (h : (⟨1, ![R]⟩ : Shape).ShapeCasts ⟨2, ![R, 1]⟩)
    (r : Fin R) (u : Fin 1) : shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `R × 1` column broadcast along `N` columns reads, at `(r, c)`, the column's entry at row `r`. -/
theorem broadcastTo_a1_ab_apply (v : (⟨2, ![R, 1]⟩ : Shape).Idx → α) (h : (⟨2, ![R, 1]⟩ : Shape).Broadcasts ⟨2, ![R, N]⟩)
    (r : Fin R) (c : Fin N) : broadcastTo ⟨2, ![R, N]⟩ v h (ix2 r c) = v (ix2 r (0 : Fin 1)) := by
  refine broadcastTo_apply v h (ix2 r c) (ix2 r (0 : Fin 1)) fun ax => ?_
  match ax with
  | ⟨0, _⟩ =>
    show r.val = if R = 1 then 0 else r.val
    split
    · have := r.isLt; omega
    · rfl
  | ⟨1, _⟩ =>
    show (0 : ℕ) = if (1 : ℕ) = 1 then 0 else c.val
    rw [if_pos rfl]

/-- The two together: a vector of row values, made a column and broadcast along the columns, reads the row's value. -/
theorem rowSplat_apply (x : (⟨1, ![R]⟩ : Shape).Idx → α) (hc : (⟨1, ![R]⟩ : Shape).ShapeCasts ⟨2, ![R, 1]⟩)
    (hb : (⟨2, ![R, 1]⟩ : Shape).Broadcasts ⟨2, ![R, N]⟩) (r : Fin R) (c : Fin N) :
    broadcastTo ⟨2, ![R, N]⟩ (shapeCast ⟨2, ![R, 1]⟩ x hc) hb (ix2 r c) = x (ix1 r) := by
  rw [broadcastTo_a1_ab_apply, shapeCast_a_a1_apply]

/-- A matrix index whose two coordinates are known is `ix2` of them. -/
theorem eq_ix2_of_val {n0 n1 : ℕ} (i : (⟨2, ![n0, n1]⟩ : Shape).Idx) (a : Fin n0) (b : Fin n1)
    (h0 : (i (0 : Fin 2)).val = a.val) (h1 : (i (1 : Fin 2)).val = b.val) : i = ix2 a b := by
  funext c
  apply Fin.ext
  match c with
  | ⟨0, _⟩ => exact h0
  | ⟨1, _⟩ => exact h1

/-- With no batch axes and the rows the left operand's one free axis, the left index's row is the result index's row,
    whatever the contraction position. -/
theorem lhsIdx_row (d : DotDims ⟨2, ![R, K]⟩ ⟨2, ![K, N]⟩ ⟨2, ![R, N]⟩)
    (hln : d.lhsNonContracting = [(0 : Fin 2)]) (hlb : d.lhsBatch = [])
    (j : (⟨2, ![R, N]⟩ : Shape).Idx) (q : d.contr.Idx) : (d.lhsIdx j q (0 : Fin 2)).val = (j (0 : Fin 2)).val := by
  have hnb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln])

/-- With no batch axes, the rows the left operand's one free axis and the columns the right operand's, the right index's
    column is the result index's column, whatever the contraction position. -/
theorem rhsIdx_col (d : DotDims ⟨2, ![R, K]⟩ ⟨2, ![K, N]⟩ ⟨2, ![R, N]⟩)
    (hln : d.lhsNonContracting = [(0 : Fin 2)]) (hrn : d.rhsNonContracting = [(1 : Fin 2)])
    (hlb : d.lhsBatch = []) (hrb : d.rhsBatch = [])
    (j : (⟨2, ![R, N]⟩ : Shape).Idx) (q : d.contr.Idx) : (d.rhsIdx j q (1 : Fin 2)).val = (j (1 : Fin 2)).val := by
  have hnb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln, hrn])

/-- A plain matrix product (`R × K` by `K × N`, the left operand's columns contracted against the right operand's rows,
    no batch axes) into the zero accumulator, read at `(r, j)`: the sum over `k` of row `r` of the left operand against
    column `j` of the right. -/
theorem matmul_row_apply (d : DotDims ⟨2, ![R, K]⟩ ⟨2, ![K, N]⟩ ⟨2, ![R, N]⟩)
    (hlc : d.lhsContracting = [(1 : Fin 2)]) (hrc : d.rhsContracting = [(0 : Fin 2)])
    (hln : d.lhsNonContracting = [(0 : Fin 2)]) (hrn : d.rhsNonContracting = [(1 : Fin 2)])
    (hlb : d.lhsBatch = []) (hrb : d.rhsBatch = [])
    (prec : Option ContractPrecision) (lhs : FVec Ideal ⟨2, ![R, K]⟩ φ₁) (rhs : FVec Ideal ⟨2, ![K, N]⟩ φ₂)
    (r : Fin R) (j : Fin N) :
    FloatOps.matmul d prec lhs rhs (constant ⟨2, ![R, N]⟩ .f32 0x00000000#32) (ix2 r j)
      = ∑ k : Fin K, lhs (ix2 r k) * rhs (ix2 k j) := by
  have hr : d.contr.rank = 1 := by rw [d.rank_contr, hlc]; rfl
  have hs : d.contr.size ⟨0, by omega⟩ = K := by
    have h0 : 0 < d.lhsContracting.length := by rw [hlc]; exact Nat.one_pos
    have e1 : d.lhsContracting[0] = (1 : Fin 2) := by simp [hlc]
    exact (d.size_contr 0 h0).trans (by rw [e1]; rfl)
  rw [Ideal.matmul_constant_zero_apply]
  refine ((contrEquiv1 d K hr hs).symm.sum_comp _).symm.trans (Finset.sum_congr rfl fun k _ => ?_)
  have hL : d.lhsIdx (ix2 r j) ((contrEquiv1 d K hr hs).symm k) = ix2 r k :=
    eq_ix2_of_val _ r k (lhsIdx_row d hln hlb _ _)
      ((d.lhsIdx_val_of_single hlc _ _).trans (contrEquiv1_symm_val d K hr hs k))
  have hR : d.rhsIdx (ix2 r j) ((contrEquiv1 d K hr hs).symm k) = ix2 k j :=
    eq_ix2_of_val _ k j ((d.rhsIdx_val_of_single hrc _ _).trans (contrEquiv1_symm_val d K hr hs k))
      (rhsIdx_col d hln hrn hlb hrb _ _)
  show lhs (d.lhsIdx (ix2 r j) ((contrEquiv1 d K hr hs).symm k)) * rhs (d.rhsIdx (ix2 r j) ((contrEquiv1 d K hr hs).symm k)) = _
  rw [hL, hR]

end Cert.RowOps

end
-- ==== Proof.KernelRow.lean ====
/-
  The kernel body's result at an index, at the ideal instance. From a 512 × 4096 block `x` of queries and the
  4096 × 3 array `w` of normalised supports, the body stores the 512 × 3 product of the row-normalised block with `w`:
  entry `(p, j)` is `∑ k, (x p k · (∑ k', x p k' · x p k')^(-1/2)) · w k j`. Row `p` of the result depends on row `p` of `x`
  alone. The change of float format before the product is the identity on the extended reals.
-/
import proofs.«110496_j14826227106300_1_alg».proof.Proof.Gen.KernelIdeal.Skeleton
import proofs.«110496_j14826227106300_1_alg».proof.Proof.LibRowOps

noncomputable section

open scoped BigOperators

namespace Cert.KernelIdeal.Row

open Cert.KernelIdeal Cert.KernelIdeal.Gen Idealize.ShloMosaic Idealize.ShloMosaic.ValueIdx

/-- The row's sum of squares, made a column and broadcast along the row after the reciprocal square root, read at
    `(p, k)`: the reciprocal square root of row `p`'s sum of squares. -/
theorem inv_norm_apply (x : FVec Ideal S512x4096 .f32) (p : Fin 512) (k : Fin 4096) :
    broadcastTo S512x4096 (rsqrt (shapeCast S512x1
        (multiReduction .add [1] S512 (mulf x x) 0x00000000#32 reduces_S512x4096_S512 (.inl rfl) rfl)
        shapeCasts_S512_S512x1)) broadcasts_S512x1_S512x4096 (ix2 p k)
      = Ideal.rsqrt (∑ k' : Fin 4096, x (ix2 p k') * x (ix2 p k')) := by
  rw [Cert.RowOps.broadcastTo_a1_ab_apply]
  show Ideal.rsqrt (shapeCast S512x1 _ shapeCasts_S512_S512x1 (ix2 p (0 : Fin 1))) = _
  rw [Cert.RowOps.shapeCast_a_a1_apply]
  exact congrArg Ideal.rsqrt
    (Cert.RowOps.rowSum_apply (φ := .f32) (mulf x x) 0x00000000#32 reduces_S512x4096_S512 (.inl rfl) rfl p)

/-- THE BODY'S RESULT AT `(p, j)`: row `p` of the block, normalised, against column `j` of `w`. -/
theorem pay_apply (x : FVec Ideal S512x4096 .f32) (w : FVec Ideal S4096x3 .bf16) (p : Fin 512) (j : Fin 3) :
    k0_pay1 (F := Ideal) x w (ix2 p j)
      = ∑ k : Fin 4096, (x (ix2 p k) * Ideal.rsqrt (∑ k' : Fin 4096, x (ix2 p k') * x (ix2 p k'))) * w (ix2 k j) := by
  unfold k0_pay1
  refine (Cert.RowOps.matmul_row_apply dot_S512x4096_S4096x3_S512x3_1_0_0_1_n_n rfl rfl rfl rfl rfl rfl none _ _ p j).trans ?_
  refine Finset.sum_congr rfl fun k _ => ?_
  rw [shapeCast_self]
  show (x (ix2 p k) * broadcastTo S512x4096 _ broadcasts_S512x1_S512x4096 (ix2 p k)) * w (ix2 k j) = _
  rw [inv_norm_apply]

end Cert.KernelIdeal.Row

end
-- ==== Proof.KernelArray.lean ====
/-
  The kernel's result array as ONE function of the arrays the region finds. The grid has 32 points; point `t` stages
  rows `512 t … 512 t + 511` of the queries, the whole 4096 × 3 array of normalised supports, and writes back rows
  `512 t … 512 t + 511` of the 16384 × 3 result. Since row `p` of what the body stores depends on row `p` of the staged
  queries alone, every point writes the matching block of one whole-array function, `cosines`: entry `(r, j)` is
  `∑ k, (x r k · (∑ k', x r k' · x r k')^(-1/2)) · w k j`. The 32 blocks cover the result, so after the run it IS `cosines`.
-/
import proofs.«110496_j14826227106300_1_alg».proof.Proof.Gen.KernelIdeal.Value
import proofs.«110496_j14826227106300_1_alg».proof.Proof.KernelRow

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-- Entry `(r, j)` of the result: row `r` of the queries, normalised, against column `j` of the supports. -/
def cosine (x : FVec Ideal S16384x4096 .f32) (w : FVec Ideal S4096x3 .bf16) (r : Fin 16384) (j : Fin 3) : EReal :=
  ∑ k : Fin 4096, (x (ix2 r k) * Ideal.rsqrt (∑ k' : Fin 4096, x (ix2 r k') * x (ix2 r k'))) * w (ix2 k j)

/-- The whole result array. -/
def cosines (x : FVec Ideal S16384x4096 .f32) (w : FVec Ideal S4096x3 .bf16) : FVec Ideal S16384x3 .f32 :=
  fun i => cosine x w ⟨(i 0).val, (i 0).isLt⟩ ⟨(i 1).val, (i 1).isLt⟩

/-- What the body stores at `(p, q)` from a block `xb` and supports `wb` is the result's entry at an array index `i`
    whenever row `p` of the block is row `i 0` of the queries and column `q` of `wb` is column `i 1` of the supports. -/
theorem pay_eq_cosines (x : FVec Ideal S16384x4096 .f32) (w : FVec Ideal S4096x3 .bf16)
    (xb : FVec Ideal S512x4096 .f32) (wb : FVec Ideal S4096x3 .bf16) (p : Fin 512) (q : Fin 3) (i : S16384x3.Idx)
    (hx : ∀ k : Fin 4096, xb (ix2 p k) = x (ix2 ⟨(i 0).val, (i 0).isLt⟩ k))
    (hw : ∀ k : Fin 4096, wb (ix2 k q) = w (ix2 k ⟨(i 1).val, (i 1).isLt⟩)) :
    k0_pay1 (F := Ideal) xb wb (ix2 p q) = cosines x w i := by
  rw [Cert.KernelIdeal.Row.pay_apply]
  unfold cosines cosine
  simp only [hx, hw]

variable (m : (ℓ : Loc nD τ sig) → Buf (Elt Ideal) ℓ) (ρ : Dev nD → PrngReg)

/-- The queries as the region finds them. -/
abbrev queries (c : Dev nD) : FVec Ideal S16384x4096 .f32 := V m c main_arg0
/-- The normalised supports as the region finds them (the host operations before the region wrote them). -/
abbrev supports (c : Dev nD) : FVec Ideal S4096x3 .bf16 := V m c main_v4

theorem origin : (![0, 0] : Fin 2 → Nat) = fun _ => 0 := funext fun a => by fin_cases a <;> rfl

/-- The printed index maps over the grid: the queries' block moves with the result's along the rows, nothing moves
    along the columns, and the supports' block stays put. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 31
    ∧ win0_2.index t (1 : Fin 2) = 0 :=
  (by decide +kernel : ∀ t : Fin grid0.N, _)

/-- Every block of rows is some point's. -/
theorem idx_onto : ∀ b : Fin 32, ∃ t : Fin cfg0.N, win0_2.index t = ![b.val, 0] :=
  (by decide +kernel : ∀ b : Fin 32, ∃ t : Fin grid0.N, win0_2.index t = ![b.val, 0])

/-- WHAT POINT `t` WRITES BACK is block `t` of `cosines` of the arrays the region finds. -/
theorem flushed_eq (c : Dev nD) (t : Fin cfg0.N) :
    (dats m 0 c).flushed 2 t = ((cfg0.win 2).blk t).view.read (Elt Ideal) (cosines (queries m c) (supports m c)) := by
  rw [Cert.KernelIdeal.Value.flushed2]
  unfold out0_2
  rw [View.canon_unit_zero origin]
  simp only [View.ld_unit_zero (S := S512x4096) origin, View.ld_unit_zero (S := S4096x3) origin]
  obtain ⟨e0, e1, e2, e3, e4, e5⟩ := idx_facts t
  funext y
  obtain ⟨p, q, rfl⟩ : ∃ (p : Fin 512) (q : Fin 3), y = ix2 p q := ⟨y 0, y 1, eq_ix2 y⟩
  show k0_pay1 (F := Ideal) (iblk m c 0 t) (iblk m c 1 t) (ix2 p q)
    = cosines (queries m c) (supports m c) (((cfg0.win 2).blk t).view.emb (ix2 p q))
  refine pay_eq_cosines (queries m c) (supports m c) (iblk m c 0 t) (iblk m c 1 t) p q _ (fun k => ?_) (fun k => ?_)
  · show V m c main_arg0 (((cfg0.win 0).blk t).view.emb (ix2 p k)) = V m c main_arg0 _
    refine congrArg (V m c main_arg0) (funext fun a => Fin.ext ?_)
    match a with
    | ⟨0, _⟩ =>
      show win0_0.index t (0 : Fin 2) * 512 + 1 * p.val = win0_2.index t (0 : Fin 2) * 512 + 1 * p.val
      rw [e0]
    | ⟨1, _⟩ =>
      show win0_0.index t (1 : Fin 2) * 4096 + 1 * k.val = k.val
      rw [e1]; omega
  · show V m c main_v4 (((cfg0.win 1).blk t).view.emb (ix2 k q)) = V m c main_v4 _
    refine congrArg (V m c main_v4) (funext fun a => Fin.ext ?_)
    match a with
    | ⟨0, _⟩ =>
      show win0_1.index t (0 : Fin 2) * 4096 + 1 * k.val = k.val
      rw [e2]; omega
    | ⟨1, _⟩ =>
      show win0_1.index t (1 : Fin 2) * 3 + 1 * q.val = win0_2.index t (1 : Fin 2) * 3 + 1 * q.val
      rw [e3, e5]

/-- An index of the result is in point `t`'s block iff each coordinate is in the block's range on its axis. -/
theorem mem_blk (t : Fin cfg0.N) (i : S16384x3.Idx) :
    i ∈ ((cfg0.win 2).blk t).view.set ↔ ∀ a : Fin 2, win0_2.index t a * S512x3.size a ≤ (i a).val ∧ (i a).val < win0_2.index t a * S512x3.size a + S512x3.size a := by
  show i ∈ ((View.whole main_v5).slice (win0_2.rect t)).set ↔ _
  rw [View.set_slice_whole, Rect.mem_set_unit]
  exact Iff.rfl

/-- The 32 blocks of rows cover the result: row `r` lies in the block of point `r / 512`. -/
theorem cover (i : S16384x3.Idx) : ∃ t : Fin cfg0.N, (cfg0.win 2).flush t = true ∧ i ∈ ((cfg0.win 2).blk t).view.set := by
  have hi0 : (i 0).val < 16384 := (i 0).isLt
  have hi1 : (i 1).val < 3 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 3 ≤ (i 1).val ∧ (i 1).val < win0_2.index t (1 : Fin 2) * 3 + 3; omega

/-- THE RESULT ARRAY after the run: `cosines` of the queries and the supports the region found. -/
theorem final (c : Dev nD) : (dats m 0 c).arrAt 2 cfg0.N = cosines (queries m c) (supports m c) :=
  (dats m 0 c).arrAt_eq_of_cover 2 (cosines (queries m c) (supports m c)) (fun t _ => flushed_eq m c t) cover

/-- The kernel's run: the result at `cosines` of the launch's queries and the supports the host operations made; the
    arguments unchanged. -/
theorem run : θ_run defs (onTc (τ := τ) (main (F := Ideal))) ⟨m, fun _ => 0, ρ⟩ fun r => ∀ c : Dev nD,
      r.2.mem ((c : Thread nD τ).loc main_v5) = cosines (m ((c : Thread nD τ).loc main_arg0)) (supports m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [queries, V_main_arg0])), (h c).2⟩)
    (Cert.KernelIdeal.Value.run_blocks m ρ)

end Cert.KernelIdeal.Whole

end
-- ==== Proof.RefRow.lean ====
/-
  The reference's result at an index, at the ideal instance. It divides every row of the 16384 × 4096 queries `x` by the
  row's Euclidean norm (the square root of the row's sum of squares, summed from the initial value 0) and multiplies
  the result with the 4096 × 3 array of normalised supports: entry `(r, j)` is
  `∑ k, (x r k / √(∑ k', x r k' · x r k')) · s k j`. The supports' array is left as the reference's own stage: the kernel's
  host side builds the same array by the same operations, so it is never opened.
-/
import proofs.«110496_j14826227106300_1_alg».proof.Proof.Gen.ReferenceIdeal.Read

noncomputable section

open scoped BigOperators

namespace Cert.ReferenceIdeal.Row

open Cert.ReferenceIdeal Cert.ReferenceIdeal.Gen Cert.ReferenceIdeal.Read Idealize.ShloMosaic Idealize.ShloMosaic.ValueIdx

/-- The divisor of row `r`: the square root of the row's sum of squares. -/
theorem norm_apply (x : FVec Ideal S16384x4096 .f32) (r : Fin 16384) (k : Fin 4096) :
    val_main_v1 (F := Ideal) x (ix2 r k) = Ideal.sqrt (∑ k' : Fin 4096, x (ix2 r k') * x (ix2 r k')) := by
  rw [val_main_v1_apply, val_main_v0_apply, val_main_call0_v2_apply, val_main_call0_v1_apply, val_main_call0_cst_apply]
  show Ideal.sqrt (Ideal.ofBits .f32 0x00000000#32 + _) = _
  rw [Ideal.ofBits_zero_f32, zero_add]
  refine congrArg Ideal.sqrt (Finset.sum_congr rfl fun k' _ => ?_)
  have e : idx_main_call0_v1 (idx_main_call0_v2 (idx_main_v1 (ix2 r k))) k' = ix2 r k' :=
    funext fun a => Fin.ext (by match a with | ⟨0, _⟩ => rfl | ⟨1, _⟩ => rfl)
  rw [val_main_call0_v0_apply, e]
  rfl

/-- THE REFERENCE'S RESULT AT `(r, j)`: row `r` of the queries over its norm, against column `j` of the supports. -/
theorem ref_apply (x : FVec Ideal S16384x4096 .f32) (y : FVec Ideal S3x4096 .f32) (r : Fin 16384) (j : Fin 3) :
    val_main_v7 (F := Ideal) x y (ix2 r j)
      = ∑ k : Fin 4096, Ideal.div (x (ix2 r k)) (Ideal.sqrt (∑ k' : Fin 4096, x (ix2 r k') * x (ix2 r k')))
          * val_main_v6 (F := Ideal) y (ix2 k j) := by
  rw [val_main_v7_apply]
  refine Finset.sum_congr rfl fun k _ => ?_
  have el : lidx_main_v7 (ix2 r j) k = ix2 r k :=
    funext fun a => Fin.ext (by match a with | ⟨0, _⟩ => rfl | ⟨1, _⟩ => rfl)
  have er : ridx_main_v7 (ix2 r j) k = ix2 k j :=
    funext fun a => Fin.ext (by match a with | ⟨0, _⟩ => rfl | ⟨1, _⟩ => rfl)
  rw [el, er, val_main_v2_apply, norm_apply]
  rfl

end Cert.ReferenceIdeal.Row

end
-- ==== Proof.RowLaw.lean ====
/-
  The one law that joins the two programs, on the extended reals. A row `a` of finitely many REAL entries whose sum of
  squares `s = ∑ a k * a k` is positive is normalised by the kernel as `a k * s^(-1/2)` and by the reference as
  `a k / √s`. For a positive real `s` the reciprocal square root is the real `(√s)⁻¹` and the square root is the nonzero
  real `√s`, so the quotient is the product with `(√s)⁻¹` too. (On a zero row the two differ — `0 * ⊤ = 0` against the
  junk value of `0 / 0` — which is why positivity of `s` is assumed.)
-/
import Idealize.ShloMosaic.PureOps.Ideal

noncomputable section

open scoped BigOperators

namespace Cert.RowLaw

open Idealize.ShloMosaic

/-- The coercion of a finite real sum is the sum of the coercions. -/
theorem coe_sum {ι : Type} (s : Finset ι) (f : ι → ℝ) :
    ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-- For a real `x` and a positive real `s`: `x · s^(-1/2) = x / √s`. -/
theorem mul_rsqrt_eq_div_sqrt (x s : ℝ) (hs : 0 < s) :
    (x : EReal) * Ideal.rsqrt (s : EReal) = Ideal.div (x : EReal) (Ideal.sqrt (s : EReal)) := by
  have hq : Real.sqrt s ≠ 0 := (Real.sqrt_pos.mpr hs).ne'
  have hq' : ((Real.sqrt s : ℝ) : EReal) ≠ 0 := by exact_mod_cast hq
  rw [Ideal.rsqrt_coe, Ideal.sqrt_coe, if_neg (not_lt.mpr hs.le), if_neg hs.ne', if_neg (not_lt.mpr hs.le),
    Ideal.div, if_neg hq', EReal.coe_inv]

/-- A row of real entries has a real sum of squares. -/
theorem sumsq_coe {n : ℕ} (v : Fin n → ℝ) :
    (∑ k : Fin n, (v k : EReal) * (v k : EReal)) = ((∑ k : Fin n, v k * v k : ℝ) : EReal) := by
  rw [coe_sum]
  exact Finset.sum_congr rfl fun k _ => (EReal.coe_mul _ _).symm

/-- THE ROW LAW. Every entry of the row real and its sum of squares positive: the kernel's entry `a k · s^(-1/2)` is
    the reference's `a k / √s`. -/
theorem row_entry_eq {n : ℕ} (a : Fin n → EReal) (hfin : ∀ k, ∃ v : ℝ, a k = (v : EReal))
    (hpos : 0 < ∑ k : Fin n, a k * a k) (k : Fin n) :
    a k * Ideal.rsqrt (∑ k' : Fin n, a k' * a k') = Ideal.div (a k) (Ideal.sqrt (∑ k' : Fin n, a k' * a k')) := by
  choose v hv using hfin
  have hs : (∑ k' : Fin n, a k' * a k') = ((∑ k' : Fin n, v k' * v k' : ℝ) : EReal) := by
    rw [← sumsq_coe]
    exact Finset.sum_congr rfl fun k' _ => by rw [hv k']
  rw [hs] at hpos ⊢
  rw [hv k]
  exact mul_rsqrt_eq_div_sqrt _ _ (by exact_mod_cast hpos)

end Cert.RowLaw

end
-- ==== Proof.PreFacts.lean ====
/-
  What the precondition says of the query array `x` at the ideal instance. It is a conjunction of three `all`s:
  `|x| < +∞` everywhere, `|y| < +∞` everywhere, and, row by row, `0 < ∑ k, x r k · x r k` (the sum taken from the initial
  value 0). Read back: every entry of `x` is a real number, and every row of `x` has a positive sum of squares. The
  second array's finiteness is not needed: both programs treat it alike.
-/
import proofs.«110496_j14826227106300_1_alg».proof.Proof.Gen.Pre_finite_inputs
import Idealize.ShloMosaic.Lib.ReduceAll
import Idealize.ShloMosaic.Lib.ValueIdx
import Idealize.ShloMosaic.PureOps.Ideal.Laws

noncomputable section

open scoped BigOperators

namespace Cert.PreFacts

open Cert.Pre_finite_inputs Idealize.ShloMosaic Idealize.ShloMosaic.ValueIdx

/-- The rank-0 shape has one index. -/
instance : Subsingleton S_.Idx := ⟨fun a b => funext fun d => d.elim0⟩

/-- An ordered "less than" that came out true. -/
theorem lt_of_cmp_olt {a b : EReal} (h : Ideal.cmp .olt a b = 1#1) : a < b := by
  by_contra hn
  simp [Ideal.cmp, hn] at h

/-- An ordered "greater than" that came out true. -/
theorem lt_of_cmp_ogt {a b : EReal} (h : Ideal.cmp .ogt a b = 1#1) : b < a := by
  by_contra hn
  simp [Ideal.cmp, hn] at h

/-- The two comparisons elementwise, over any vectors: nothing of the vectors is unfolded. -/
theorem lt_of_cmpf_olt {s : Shape} {φ : FTy} (A B : FVec Ideal s φ) (i : s.Idx) (h : cmpf .olt A B i = 1#1) :
    A i < B i := lt_of_cmp_olt h
theorem lt_of_cmpf_ogt {s : Shape} {φ : FTy} (A B : FVec Ideal s φ) (i : s.Idx) (h : cmpf .ogt A B i = 1#1) :
    B i < A i := lt_of_cmp_ogt h

/-- An extended real whose absolute value is below `+∞` is a real number. -/
theorem real_of_abs_lt_top (a : EReal) (h : max a (-a) < ⊤) : ∃ v : ℝ, a = (v : EReal) := by
  have h1 : a ≠ ⊤ := fun e => by rw [e] at h; simp at h
  have h2 : a ≠ ⊥ := fun e => by rw [e] at h; simp at h
  exact ⟨a.toReal, (EReal.coe_toReal h1 h2).symm⟩

/-- The word `0x7F800000` is `+∞`. -/
theorem ofBits_inf : Ideal.ofBits .f32 0x7F800000#32 = ⊤ := by simp [Ideal.ofBits, Ideal.ieee]

/-- The host's sum along the columns from the initial value 0, read at row `r`: the sum of the row's entries. -/
theorem hostRowSum_apply (z : FVec Ideal S16384x4096 .f32) (h' : S16384x4096.ReducesTo [(1 : Fin 2)] S16384)
    (hS : 0 < S_.numel) (r : Fin 16384) :
    Host.reduceAdd (F := Ideal) z (constant S_ .f32 0x00000000#32) h' hS (ix1 r) = ∑ k : Fin 4096, z (ix2 r k) := by
  simp only [Host.reduceAdd, Ideal.hostReduceAdd_def]
  rw [Ideal.hostReduceAdd_single h' (by decide)]
  show Ideal.ofBits .f32 0x00000000#32 + _ = _
  rw [Ideal.ofBits_zero_f32, zero_add]
  refine Finset.sum_congr rfl fun k _ => ?_
  exact congrArg z (funext fun a => Fin.ext (by match a with | ⟨0, _⟩ => rfl | ⟨1, _⟩ => rfl))

/-- THE PRECONDITION READ BACK: every entry of the first argument is real, and every row of it has a positive sum of
    squares. -/
theorem of_pre [Facts] (x : FVec Ideal S16384x4096 .f32) (y : FVec Ideal S3x4096 .f32)
    (h : Cert.Pre_finite_inputs.fn (F := Ideal) x y = fun _ => 1#1) :
    (∀ i, ∃ v : ℝ, x i = (v : EReal)) ∧ (∀ r : Fin 16384, 0 < ∑ k : Fin 4096, x (ix2 r k) * x (ix2 r k)) := by
  have h0 := congrFun h ValueIdx.ix0
  dsimp only [Cert.Pre_finite_inputs.fn] at h0
  obtain ⟨h8, h13⟩ := IntOp.andi_eq_one.1 h0
  obtain ⟨h3, -⟩ := IntOp.andi_eq_one.1 h8
  refine ⟨fun i => ?_, fun r => ?_⟩
  · have hi := lt_of_cmpf_olt _ _ _ (Host.reduce_andi_all _ _ _ _ _ h3 i)
    have hlt : max (x i) (-(x i)) < Ideal.ofBits .f32 0x7F800000#32 := hi
    rw [ofBits_inf] at hlt
    exact real_of_abs_lt_top _ hlt
  · have hr := lt_of_cmpf_ogt _ _ _ (Host.reduce_andi_all _ _ _ _ _ h13 (ix1 r))
    rw [hostRowSum_apply] at hr
    refine lt_of_eq_of_lt ?_ hr
    exact Ideal.ofBits_zero_f32.symm

end Cert.PreFacts

end
-- ==== Proof.Bridge.lean ====
/-
  The two idealized programs compute one function, under the precondition. Both build the 4096 × 3 array of normalised
  supports by the same host operations (the kernel's change of float format afterwards is the identity on the extended
  reals), so that array is one and the same and is never opened. On the queries, the kernel multiplies row `r` by the
  reciprocal square root of the row's sum of squares and the reference divides it by the square root of that sum; the
  precondition makes every entry real and every row's sum of squares positive, where the two agree entry by entry
  (the row law), hence so do the products with the supports, term by term of the sum over the contracted axis.
-/
import proofs.«110496_j14826227106300_1_alg».proof.Defs
import proofs.«110496_j14826227106300_1_alg».proof.Proof.KernelArray
import proofs.«110496_j14826227106300_1_alg».proof.Proof.RefRow
import proofs.«110496_j14826227106300_1_alg».proof.Proof.RowLaw
import proofs.«110496_j14826227106300_1_alg».proof.Proof.PreFacts
import Idealize.ShloMosaic.Lib.StableHlo.Run

noncomputable section

open scoped BigOperators

namespace Cert.Bridge

open Idealize.ShloMosaic Idealize.ShloMosaic.TcCoe Idealize.SL.Sem Idealize.ShloMosaic.ValueIdx

/-- The supports the kernel's region finds are the reference's transposed, normalised supports of the same argument. -/
theorem supports_eq (m : (ℓ : Loc Cert.KernelIdeal.nD Cert.KernelIdeal.τ Cert.KernelIdeal.sig) → Buf (Elt Ideal) ℓ)
    (c : Dev Cert.KernelIdeal.nD) :
    Cert.KernelIdeal.Whole.supports m c
      = Cert.ReferenceIdeal.Read.val_main_v6 (F := Ideal)
          (m ((c.tc : Thread Cert.KernelIdeal.nD Cert.KernelIdeal.τ).loc Cert.KernelIdeal.main_arg1)) := by
  show Cert.KernelIdeal.Gen.V m c Cert.KernelIdeal.main_v4 = _
  dsimp only [Cert.KernelIdeal.Gen.V]
  simp only [Cert.KernelIdeal.Gen.hostOps0, Cert.KernelIdeal.Gen.hostOps0_1, List.flatten_cons, List.flatten_nil,
    List.append_nil, List.cons_append, List.nil_append]
  after_results
  rfl

/-- THE TWO RESULTS ARE ONE: for queries with real entries and rows of positive sum of squares, the reference's result
    is the kernel's `cosines` of the same queries and the reference's own supports. -/
theorem result_eq (x : FVec Ideal Cert.ReferenceIdeal.S16384x4096 .f32) (y : FVec Ideal Cert.ReferenceIdeal.S3x4096 .f32)
    (hfin : ∀ i, ∃ v : ℝ, x i = (v : EReal))
    (hpos : ∀ r : Fin 16384, 0 < ∑ k : Fin 4096, x (ix2 r k) * x (ix2 r k)) :
    Cert.ReferenceIdeal.Read.val_main_v7 (F := Ideal) x y
      = Cert.KernelIdeal.Whole.cosines x (Cert.ReferenceIdeal.Read.val_main_v6 (F := Ideal) y) := by
  funext i
  obtain ⟨r, j, rfl⟩ : ∃ (r : Fin 16384) (j : Fin 3), i = ix2 r j := ⟨i 0, i 1, eq_ix2 i⟩
  rw [Cert.ReferenceIdeal.Row.ref_apply]
  show _ = Cert.KernelIdeal.Whole.cosine x (Cert.ReferenceIdeal.Read.val_main_v6 (F := Ideal) y) r j
  unfold Cert.KernelIdeal.Whole.cosine
  refine Finset.sum_congr rfl fun k _ => ?_
  exact congrArg (· * Cert.ReferenceIdeal.Read.val_main_v6 (F := Ideal) y (ix2 k j))
    (Cert.RowLaw.row_entry_eq (fun k => x (ix2 r k)) (fun k => hfin (ix2 r k)) (hpos r) k).symm

/-- The algebraic conjunct: from memories agreeing on the arguments, both programs end with the kernel's `cosines`. -/
theorem algebraic : Cert.algebraic_KernelIdeal_ReferenceIdeal := by
  intro m ρ m' ρ' hpre hagree
  refine ⟨fun c => Cert.KernelIdeal.Whole.cosines
      (m ((c.tc : Thread Cert.KernelIdeal.nD Cert.KernelIdeal.τ).loc Cert.KernelIdeal.main_arg0))
      (Cert.KernelIdeal.Whole.supports m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hfin, hpos⟩ := Cert.PreFacts.of_pre _ _ (hpre c)
  rw [Cert.ReferenceIdeal.Read.val_main_v7_eq, (hagree c).1, (hagree c).2]
  exact (result_eq _ _ hfin hpos).trans (congrArg (Cert.KernelIdeal.Whole.cosines _) (supports_eq m c).symm)

end Cert.Bridge

end
-- ==== Proof.lean ====
/-
  The certificate: a cosine-similarity kernel against its reference. The kernel L2-normalises each of 16384 query
  rows (`x · (∑ x²)^(-1/2)`, in blocks of 512 rows) and multiplies with three L2-normalised support vectors; the reference
  divides each query row by its norm (`x / √(∑ x²)`) and multiplies with the same supports. The precondition makes every
  input finite and every query row non-zero (on a zero row the reference is `0 / 0`); under it the two results are one
  function of the arguments, entry by entry on the extended reals (Proof/Bridge.lean). The three frames are the
  generated ones (the reference's is its generated run with the result dropped), and the ideal pass rewrote nothing,
  so the idealization conjunct is trivial.
-/
import proofs.«110496_j14826227106300_1_alg».proof.Defs
import proofs.«110496_j14826227106300_1_alg».proof.Proof.Gen.Kernel
import proofs.«110496_j14826227106300_1_alg».proof.Proof.Gen.Kernel.Skeleton
import proofs.«110496_j14826227106300_1_alg».proof.Proof.Gen.Kernel.Launch
import proofs.«110496_j14826227106300_1_alg».proof.Proof.Gen.Kernel.Points
import proofs.«110496_j14826227106300_1_alg».proof.Proof.Gen.Kernel.Frame
import proofs.«110496_j14826227106300_1_alg».proof.Proof.Gen.KernelIdeal
import proofs.«110496_j14826227106300_1_alg».proof.Proof.Gen.KernelIdeal.Skeleton
import proofs.«110496_j14826227106300_1_alg».proof.Proof.Gen.KernelIdeal.Launch
import proofs.«110496_j14826227106300_1_alg».proof.Proof.Gen.KernelIdeal.Points
import proofs.«110496_j14826227106300_1_alg».proof.Proof.Gen.KernelIdeal.Frame
import proofs.«110496_j14826227106300_1_alg».proof.Proof.Gen.ReferenceIdeal
import proofs.«110496_j14826227106300_1_alg».proof.Proof.Gen.Pre_finite_inputs
import proofs.«110496_j14826227106300_1_alg».proof.Proof.Gen.KernelIdeal.Value
import proofs.«110496_j14826227106300_1_alg».proof.Proof.Gen.ReferenceIdeal.Run
import proofs.«110496_j14826227106300_1_alg».proof.Proof.Gen.ReferenceIdeal.Read
import proofs.«110496_j14826227106300_1_alg».proof.Proof.Bridge
import Idealize.ShloMosaic.Adequacy
import Idealize.ShloMosaic.Init

noncomputable section

namespace Cert.Proof

open Idealize.ShloMosaic Idealize.SL.Sem Cert.Kernel

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Bridge.algebraic⟩

end Cert.Proof

end
